-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S1250000 : Shape := ⟨1, ![1250000]⟩
abbrev S32x64 : Shape := ⟨2, ![32, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S1250000 : S_.BroadcastsInDim S1250000 (![] : Fin 0 → Fin S1250000.rank)
  reducesTo_S1250000_S_d0 : S1250000.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S100000x64 .f32) (main_arg1 : IVec S2x1250000 32) (main_arg2 : IVec S1250000 32) (main_arg3 : FVec F S32x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S32x64 .f32 := Host.absf main_arg3
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_c_2 : IVec S_ 32 := constantI S_ 32 0#32
  let main_v9 : IVec S1250000 32 := broadcastInDim S1250000 ![] bcast_S_S1250000 main_c_2
  let main_v10 : IVec S1250000 1 := cmpi .sge main_arg2 main_v9
  let main_c_3 : IVec S_ 1 := constantI S_ 1 1#1
  let main_v11 : IVec S_ 1 := (fun x v => Host.reduce IntOp.andi x v reducesTo_S1250000_S_d0 h_S_) main_v10 main_c_3
  let main_v12 : IVec S_ 1 := andi main_v8 main_v11
  let main_c_4 : IVec S_ 32 := constantI S_ 32 32#32
  let main_v13 : IVec S1250000 32 := broadcastInDim S1250000 ![] bcast_S_S1250000 main_c_4
  let main_v14 : IVec S1250000 1 := cmpi .slt main_arg2 main_v13
  let main_c_5 : IVec S_ 1 := constantI S_ 1 1#1
  let main_v15 : IVec S_ 1 := (fun x v => Host.reduce IntOp.andi x v reducesTo_S1250000_S_d0 h_S_) main_v14 main_c_5
  fn_part1 (F := F) main_v12 main_v15
-- ==== Kernel.lean ====
abbrev S100000x64 : Shape := ⟨2, ![100000, 64]⟩
abbrev S2x1250000 : Shape := ⟨2, ![2, 1250000]⟩
abbrev S1250000 : Shape := ⟨1, ![1250000]⟩
abbrev S32x64 : Shape := ⟨2, ![32, 64]⟩
abbrev S1x1250000 : Shape := ⟨2, ![1, 1250000]⟩
abbrev S_ : Shape := ⟨0, ![]⟩
abbrev S1250000x1 : Shape := ⟨2, ![1250000, 1]⟩
abbrev S1250000x64 : Shape := ⟨2, ![1250000, 64]⟩
abbrev S1253376x64 : Shape := ⟨2, ![1253376, 64]⟩
abbrev S1253376 : Shape := ⟨1, ![1253376]⟩
abbrev S1253376x1 : Shape := ⟨2, ![1253376, 1]⟩
abbrev S8192x64 : Shape := ⟨2, ![8192, 64]⟩
abbrev S8192x1 : Shape := ⟨2, ![8192, 1]⟩
abbrev S8192x32 : Shape := ⟨2, ![8192, 32]⟩
abbrev S100000 : Shape := ⟨1, ![100000]⟩
abbrev S106496x64 : Shape := ⟨2, ![106496, 64]⟩
abbrev S106496 : Shape := ⟨1, ![106496]⟩
abbrev S106496x1 : Shape := ⟨2, ![106496, 1]⟩

abbrev nBuf : Space → Nat
  | .hbm => 45
  | .vmem => 13
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S1250000, .i32⟩
  | .hbm, ⟨3, _⟩ => ⟨S32x64, .f32⟩
  | .hbm, ⟨4, _⟩ => ⟨S1x1250000, .i32⟩
  | .hbm, ⟨5, _⟩ => ⟨S1250000, .i32⟩
  | .hbm, ⟨6, _⟩ => ⟨S1x1250000, .i32⟩
  | .hbm, ⟨7, _⟩ => ⟨S1250000, .i32⟩
  | .hbm, ⟨8, _⟩ => ⟨S_, .i32⟩
  | .hbm, ⟨9, _⟩ => ⟨S1250000, .i32⟩
  | .hbm, ⟨10, _⟩ => ⟨S1250000, .i1⟩
  | .hbm, ⟨11, _⟩ => ⟨S_, .i32⟩
  | .hbm, ⟨12, _⟩ => ⟨S1250000, .i32⟩
  | .hbm, ⟨13, _⟩ => ⟨S1250000, .i32⟩
  | .hbm, ⟨14, _⟩ => ⟨S1250000, .i32⟩
  | .hbm, ⟨15, _⟩ => ⟨S1250000x1, .i32⟩
  | .hbm, ⟨16, _⟩ => ⟨S1250000x64, .f32⟩
  | .hbm, ⟨17, _⟩ => ⟨S_, .i32⟩
  | .hbm, ⟨18, _⟩ => ⟨S_, .f32⟩
  | .hbm, ⟨19, _⟩ => ⟨S1253376x64, .f32⟩
  | .hbm, ⟨20, _⟩ => ⟨S_, .i32⟩
  | .hbm, ⟨21, _⟩ => ⟨S_, .i32⟩
  | .hbm, ⟨22, _⟩ => ⟨S1253376, .i32⟩
  | .hbm, ⟨23, _⟩ => ⟨S1253376x1, .i32⟩
  | .hbm, ⟨24, _⟩ => ⟨S1253376x64, .f32⟩
  | .hbm, ⟨25, _⟩ => ⟨S1250000x64, .f32⟩
  | .hbm, ⟨26, _⟩ => ⟨S_, .f32⟩
  | .hbm, ⟨27, _⟩ => ⟨S100000x64, .f32⟩
  | .hbm, ⟨28, _⟩ => ⟨S1250000x1, .i32⟩
  | .hbm, ⟨29, _⟩ => ⟨S100000x64, .f32⟩
  | .hbm, ⟨30, _⟩ => ⟨S_, .f32⟩
  | .hbm, ⟨31, _⟩ => ⟨S1250000, .f32⟩
  | .hbm, ⟨32, _⟩ => ⟨S_, .f32⟩
  | .hbm, ⟨33, _⟩ => ⟨S100000, .f32⟩
  | .hbm, ⟨34, _⟩ => ⟨S1250000x1, .i32⟩
  | .hbm, ⟨35, _⟩ => ⟨S100000, .f32⟩
  | .hbm, ⟨36, _⟩ => ⟨S_, .i32⟩
  | .hbm, ⟨37, _⟩ => ⟨S_, .f32⟩
  | .hbm, ⟨38, _⟩ => ⟨S106496x64, .f32⟩
  | .hbm, ⟨39, _⟩ => ⟨S_, .i32⟩
  | .hbm, ⟨40, _⟩ => ⟨S_, .f32⟩
  | .hbm, ⟨41, _⟩ => ⟨S106496, .f32⟩
  | .hbm, ⟨42, _⟩ => ⟨S106496x1, .f32⟩
  | .hbm, ⟨43, _⟩ => ⟨S106496x64, .f32⟩
  | .hbm, ⟨44, _⟩ => ⟨S100000x64, .f32⟩
  | .local _ .vmem, ⟨0, _⟩ => ⟨S8192x64, .f32⟩
  | .local _ .vmem, ⟨1, _⟩ => ⟨S8192x64, .f32⟩
  | .local _ .vmem, ⟨2, _⟩ => ⟨S8192x1, .i32⟩
  | .local _ .vmem, ⟨3, _⟩ => ⟨S8192x1, .i32⟩
  | .local _ .vmem, ⟨4, _⟩ => ⟨S32x64, .f32⟩
  | .local _ .vmem, ⟨5, _⟩ => ⟨S8192x64, .f32⟩
  | .local _ .vmem, ⟨6, _⟩ => ⟨S8192x64, .f32⟩
  | .local _ .vmem, ⟨7, _⟩ => ⟨S8192x64, .f32⟩
  | .local _ .vmem, ⟨8, _⟩ => ⟨S8192x64, .f32⟩
  | .local _ .vmem, ⟨9, _⟩ => ⟨S8192x1, .f32⟩
  | .local _ .vmem, ⟨10, _⟩ => ⟨S8192x1, .f32⟩
  | .local _ .vmem, ⟨11, _⟩ => ⟨S8192x64, .f32⟩
  | .local _ .vmem, ⟨12, _⟩ => ⟨S8192x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_call0_v0 : Ref sig .tc := ⟨.hbm, 18, rfl⟩
abbrev main_v11 : Ref sig .tc := ⟨.hbm, 19, rfl⟩
abbrev main_c_2 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_call2_v0 : Ref sig .tc := ⟨.hbm, 37, rfl⟩
abbrev main_v23 : Ref sig .tc := ⟨.hbm, 38, rfl⟩
abbrev main_c_6 : Ref sig .tc := ⟨.hbm, 39, rfl⟩
abbrev main_call3_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![153], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  pads_S1250000x64_S1253376x64_033760_000 : S1250000x64.Pads (![0, 0] : Fin 2 → Nat) ![3376, 0] ![0, 0] S1253376x64
  h_S_ : 0 < S_.numel
  pads_S1250000_S1253376_033760 : S1250000.Pads (![0] : Fin 1 → Nat) ![3376] ![0] S1253376
  bcast_S1253376_S1253376x1_0 : S1253376.BroadcastsInDim S1253376x1 (![0] : Fin 1 → Fin S1253376x1.rank)
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S32x64_S32x64_0_0 : ∀ a, (![0, 0] : Fin 2 → Nat) a + S32x64.size a ≤ S32x64.size a
  h_S32x64 : 0 < S32x64.numel
  bitsLt_bf16_f32 : FTy.bits .bf16 < FTy.bits .f32
  iota_S8192x32_d1_w32 : S8192x32.Iotas .tc 32 [1]
  broadcasts_S8192x1_S8192x32 : S8192x1.Broadcasts S8192x32
  natLt_1_32 : 1 < 32
  slices_S1253376x64_S1250000x64_0_0 : S1253376x64.Slices ![0, 0] S1250000x64
  bcast_S_S100000x64 : S_.BroadcastsInDim S100000x64 (![] : Fin 0 → Fin S100000x64.rank)
  bcast_S_S100000 : S_.BroadcastsInDim S100000 (![] : Fin 0 → Fin S100000.rank)
  pads_S100000x64_S106496x64_064960_000 : S100000x64.Pads (![0, 0] : Fin 2 → Nat) ![6496, 0] ![0, 0] S106496x64
  pads_S100000_S106496_064960 : S100000.Pads (![0] : Fin 1 → Nat) ![6496] ![0] S106496
  bcast_S106496_S106496x1_0 : S106496.BroadcastsInDim S106496x1 (![0] : Fin 1 → Fin S106496x1.rank)
  broadcasts_S8192x1_S8192x64 : S8192x1.Broadcasts S8192x64
  slices_S106496x64_S100000x64_0_0 : S106496x64.Slices ![0, 0] S100000x64
  gather_S100000x64_S1250000x1_S1250000x64_1_0_n_n_0_1_164_wf : GatherDims.WF S100000x64 S1250000x1 S1250000x64 [1] [0] [] [0] [] 1 ![1, 64]
  dot_S8192x32_S32x64_S8192x64_1_0_0_1_n_n_wf : DotDims.WF S8192x32 S32x64 S8192x64 [1] [0] [0] [1] [] []
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1253376x64.size a
  hwx0_0 : ∀ i : grid0.Coords, EltTy.bits .f32 = 32 ∨ (Rect.block (s := S1253376x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S1253376x1.size a
  hwx0_1 : ∀ i : grid0.Coords, EltTy.bits .i32 = 32 ∨ (Rect.block (s := S1253376x1) S8192x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S1253376x64.size a
  hwx0_3 : ∀ i : grid0.Coords, EltTy.bits .f32 = 32 ∨ (Rect.block (s := S1253376x64) S8192x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S106496x64.size a
  hwx1_0 : ∀ i : grid1.Coords, EltTy.bits .f32 = 32 ∨ (Rect.block (s := S106496x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S106496x1.size a
  hwx1_1 : ∀ i : grid1.Coords, EltTy.bits .f32 = 32 ∨ (Rect.block (s := S106496x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S106496x64.size a
  hwx1_2 : ∀ i : grid1.Coords, EltTy.bits .f32 = 32 ∨ (Rect.block (s := S106496x64) S8192x64.size (cc1_transform_2 i) (hinb1_2 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf

abbrev win0_0 : Pipeline.Window sig grid0 :=
  Pipeline.Window.ofSpec (Memref.whole main_v11) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S8192x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S1250000 : Shape := ⟨1, ![1250000]⟩
abbrev S32x64 : Shape := ⟨2, ![32, 64]⟩
abbrev S1x1250000 : Shape := ⟨2, ![1, 1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩

abbrev nBuf : Space → Nat
  | .hbm => 43
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S1250000, .i32⟩
  | .hbm, ⟨3, _⟩ => ⟨S32x64, .f32⟩
  | .hbm, ⟨4, _⟩ => ⟨S1x1250000, .i32⟩
  | .hbm, ⟨5, _⟩ => ⟨S1250000, .i32⟩
  | .hbm, ⟨6, _⟩ => ⟨S1x1250000, .i32⟩
  | .hbm, ⟨7, _⟩ => ⟨S1250000, .i32⟩
  | .hbm, ⟨8, _⟩ => ⟨S_, .i32⟩
  | .hbm, ⟨9, _⟩ => ⟨S1250000, .i32⟩
  | .hbm, ⟨10, _⟩ => ⟨S1250000, .i1⟩
  | .hbm, ⟨11, _⟩ => ⟨S_, .i32⟩
  | .hbm, ⟨12, _⟩ => ⟨S1250000, .i32⟩
  | .hbm, ⟨13, _⟩ => ⟨S1250000, .i32⟩
  | .hbm, ⟨14, _⟩ => ⟨S1250000, .i32⟩
  | .hbm, ⟨15, _⟩ => ⟨S1250000x1, .i32⟩
  | .hbm, ⟨16, _⟩ => ⟨S1250000x64, .f32⟩
  | .hbm, ⟨17, _⟩ => ⟨S_, .i32⟩
  | .hbm, ⟨18, _⟩ => ⟨S1250000, .i32⟩
  | .hbm, ⟨19, _⟩ => ⟨S1250000, .i1⟩
  | .hbm, ⟨20, _⟩ => ⟨S_, .i32⟩
  | .hbm, ⟨21, _⟩ => ⟨S1250000, .i32⟩
  | .hbm, ⟨22, _⟩ => ⟨S1250000, .i32⟩
  | .hbm, ⟨23, _⟩ => ⟨S1250000, .i32⟩
  | .hbm, ⟨24, _⟩ => ⟨S1250000x1, .i32⟩
  | .hbm, ⟨25, _⟩ => ⟨S1250000x64, .f32⟩
  | .hbm, ⟨26, _⟩ => ⟨S1250000x64, .f32⟩
  | .hbm, ⟨27, _⟩ => ⟨S_, .f32⟩
  | .hbm, ⟨28, _⟩ => ⟨S100000x64, .f32⟩
  | .hbm, ⟨29, _⟩ => ⟨S1250000x1, .i32⟩
  | .hbm, ⟨30, _⟩ => ⟨S100000x64, .f32⟩
  | .hbm, ⟨31, _⟩ => ⟨S_, .f32⟩
  | .hbm, ⟨32, _⟩ => ⟨S1250000, .f32⟩
  | .hbm, ⟨33, _⟩ => ⟨S_, .f32⟩
  | .hbm, ⟨34, _⟩ => ⟨S100000, .f32⟩
  | .hbm, ⟨35, _⟩ => ⟨S1250000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x64, .f32⟩
  | .hbm, ⟨42, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  gather_S32x64_S1250000x1_S1250000x64_1_0_n_n_0_1_164_wf : GatherDims.WF S32x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def gather_S32x64_S1250000x1_S1250000x64_1_0_n_n_0_1_164 : GatherDims S32x64 S1250000x1 S1250000x64 where
  offsetDims := [1]
  collapsedSliceDims := [0]
  operandBatchingDims := []
  startIndicesBatchingDims := []
  startIndexMap := [0]
  indexVectorDim := 1
  sliceSizes := ![1, 64]
  wf := gather_S32x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf

class Facts : Prop extends Facts₀ where

variable [Facts]
-- ==== Proof.RelationRow.lean ====
/-
  Two facts about picking ONE ROW of a small table, stated over abstract arrays.

  * A gather along axis 0 with one start index per result row (what `table[idx]` lowers to for a rank-2 table):
    result element (e, q) is the table at row `idx[e, 0]`, read as a signed integer and clamped into the table's
    rows, column q.
  * A contraction with a ONE-HOT row: the sum over k of [e = k] · w k is w e, whenever the word e names one of
    the n positions. The bracket is what a compare-for-equality gives once widened and converted to a float: 1 at
    the one position where the words agree, 0 at every other, and in the extended reals 0 · x = 0 and 1 · x = x for
    every x, infinite or not, so the sum has a single term.
-/
import Idealize.ShloMosaic.PureOps.Ideal.Laws
import Idealize.ShloMosaic.Lib.ValueIdx
import Idealize.ShloMosaic.Lib.StableHlo.Predicate

noncomputable section

open scoped BigOperators

namespace Cert.RelationRow

open Idealize.ShloMosaic Idealize.ShloMosaic.ValueIdx

/-! ## A row gather read at an index -/

section RowTake
variable {α : Type}

/-- The dimension numbers of `table[idx]` for a table `[N, C]`, start indices `[R, 1]` and result `[R, C]`. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Result element (e, q) of the row gather is the table at the clamped start row, column q. -/
theorem rowTake_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (q : Fin C) :
    Host.gather (rowDims N R C wf) x idx (ix2 e q)
      = x (ix2 ⟨min (idx (ix2 e (0 : Fin 1))).toInt.toNat (N - 1), by omega⟩ q) := by
  unfold Host.gather
  congr 1
  funext a
  refine Fin.ext ?_
  match a with
  | ⟨0, _⟩ =>
    show (rowDims N R C wf).start (ix2 e q) idx 0 + (rowDims N R C wf).batchCoord (ix2 e q) 0
        + (rowDims N R C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e q) ⟨List.idxOf (0 : Fin 2) (rowDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N R C wf).start (ix2 e q) idx 1 + (rowDims N R C wf).batchCoord (ix2 e q) 1
        + (rowDims N R C wf).offCoord (ix2 e q) 1 = _
    rw [GatherDims.batchCoord_eq_zero _ _ _ List.not_mem_nil]
    unfold GatherDims.start
    rw [dif_neg (show ¬ (1 : Fin 2) ∈ (rowDims N R C wf).startIndexMap from
      fun h => absurd (congrArg Fin.val (List.mem_singleton.mp h)) Nat.one_ne_zero)]
    simp only [Nat.add_zero, Nat.zero_add]
    rfl

end RowTake

/-! ## The one-hot contraction -/

/-- The compare-for-equality of two words, widened to 32 bits and converted to a float, as an extended real:
    1 where the words agree, 0 where they differ. -/
def hot (e k : BitVec 32) : EReal := ((((IntOp.cmpi .eq e k).setWidth 32).toInt : ℝ) : EReal)

theorem hot_self (e : BitVec 32) : hot e e = 1 := by
  unfold hot
  rw [(StableHlo.Predicate.cmpi_eq_iff).mpr rfl]
  norm_num

theorem hot_ne {e k : BitVec 32} (h : e ≠ k) : hot e k = 0 := by
  unfold hot
  have : IntOp.cmpi .eq e k = 0#1 :=
    eq_zero_of_ne_one fun h1 => h ((StableHlo.Predicate.cmpi_eq_iff).mp h1)
  rw [this]
  norm_num

/-- The sum over the n positions of [e = k] · w k is w at the position e names. -/
theorem hot_contract {n : Nat} (hn : n < 2 ^ 32) (e : BitVec 32) (he : e.toNat < n) (w : Fin n → EReal) :
    ∑ k : Fin n, hot e (BitVec.ofNat 32 k.val) * w k = w ⟨e.toNat, he⟩ := by
  rw [Finset.sum_eq_single (⟨e.toNat, he⟩ : Fin n)]
  · have : BitVec.ofNat 32 e.toNat = e :=
      BitVec.eq_of_toNat_eq (by rw [BitVec.toNat_ofNat]; exact Nat.mod_eq_of_lt e.isLt)
    show hot e (BitVec.ofNat 32 e.toNat) * _ = _
    rw [this, hot_self, one_mul]
  · intro k _ hk
    have hne : e ≠ BitVec.ofNat 32 k.val := by
      intro h
      apply hk
      apply Fin.ext
      have := congrArg BitVec.toNat h
      rw [BitVec.toNat_ofNat, Nat.mod_eq_of_lt (by have := k.isLt; omega)] at this
      exact this.symm
    rw [hot_ne hne, zero_mul]
  · intro h; exact absurd (Finset.mem_univ _) h

end Cert.RelationRow

end
-- ==== Proof.EdgeProduct.lean ====
/-
  What the first kernel's body stores, read at one element of its block.

  The body holds a block of 8192 edges: the tail entity's row `ent` (64 columns), the edge's relation word `et`, and the
  whole relation table `w` (32 rows). It compares the relation word with 0 … 31 along a new axis, turns the 32 truth
  values into floats, and multiplies that 8192 × 32 matrix with the table on the matrix unit into a zero
  accumulator; the product with `ent` is what it stores. Over the extended reals a change of float format is the
  identity and the matrix product into zero is the plain sum over the contracted axis, so element (p, q) of the store
  is  ent[p, q] · Σ_k [et[p] = k] · w[k, q].
-/
import proofs.«400545_j38543036514382_2_alg».proof.Proof.Gen.KernelIdeal.Skeleton
import proofs.«400545_j38543036514382_2_alg».proof.Proof.RelationRow
import Idealize.ShloMosaic.PureOps.Ideal.Laws
import Idealize.ShloMosaic.Lib.ValueIdx
import Idealize.ShloMosaic.Lib.Pipeline.Value

noncomputable section

open scoped BigOperators

namespace Cert.KernelIdeal.EdgeProduct

open Cert.KernelIdeal Cert.KernelIdeal.Gen Idealize.ShloMosaic Idealize.ShloMosaic.ValueIdx Cert.RelationRow

/-! ## The matrix product's operand indices: rows × (one contracted axis of 32) × columns -/

theorem lhs_0 (j : S8192x64.Idx) (k : dot_S8192x32_S32x64_S8192x64_1_0_0_1_n_n.contr.Idx) :
    (dot_S8192x32_S32x64_S8192x64_1_0_0_1_n_n.lhsIdx j k 0).val = (j 0).val := by
  unfold DotDims.lhsIdx
  rw [dif_neg (show ¬(0 : Fin S8192x32.rank) ∈ dot_S8192x32_S32x64_S8192x64_1_0_0_1_n_n.lhsBatch by decide),
    dif_pos (show (0 : Fin S8192x32.rank) ∈ dot_S8192x32_S32x64_S8192x64_1_0_0_1_n_n.lhsNonContracting by decide)]
  rfl

theorem lhs_1 (j : S8192x64.Idx) (k : dot_S8192x32_S32x64_S8192x64_1_0_0_1_n_n.contr.Idx) :
    (dot_S8192x32_S32x64_S8192x64_1_0_0_1_n_n.lhsIdx j k 1).val = (k ⟨0, by decide⟩).val :=
  DotDims.lhsIdx_val_of_single _ rfl j k

theorem rhs_0 (j : S8192x64.Idx) (k : dot_S8192x32_S32x64_S8192x64_1_0_0_1_n_n.contr.Idx) :
    (dot_S8192x32_S32x64_S8192x64_1_0_0_1_n_n.rhsIdx j k 0).val = (k ⟨0, by decide⟩).val :=
  DotDims.rhsIdx_val_of_single _ rfl j k

theorem rhs_1 (j : S8192x64.Idx) (k : dot_S8192x32_S32x64_S8192x64_1_0_0_1_n_n.contr.Idx) :
    (dot_S8192x32_S32x64_S8192x64_1_0_0_1_n_n.rhsIdx j k 1).val = (j 1).val := by
  unfold DotDims.rhsIdx
  rw [dif_neg (show ¬(1 : Fin S32x64.rank) ∈ dot_S8192x32_S32x64_S8192x64_1_0_0_1_n_n.rhsBatch by decide),
    dif_pos (show (1 : Fin S32x64.rank) ∈ dot_S8192x32_S32x64_S8192x64_1_0_0_1_n_n.rhsNonContracting by decide)]
  rfl

/-! ## The one-hot matrix at an element -/

/-- Element (p, k) of the compared, widened and converted matrix is the bracket [et[p] = k]. -/
theorem onehot_entry (et : Vec Ideal S8192x1 .i32) (p : Fin 8192) (k : Fin 32) :
    (truncf .bf16 (sitofp .f32 (extui 32 (cmpi .eq
        (broadcastTo S8192x32 (shapeCast S8192x1 et shapeCasts_S8192x1_S8192x1) broadcasts_S8192x1_S8192x32)
        (iota .tc S8192x32 32 [1] iota_S8192x32_d1_w32)) natLt_1_32)) bitsLt_bf16_f32 : FVec Ideal S8192x32 .bf16) (ix2 p k)
      = hot (et (ix2 p (0 : Fin 1))) (BitVec.ofNat 32 k.val) := by
  have hb : broadcastTo S8192x32 (shapeCast S8192x1 et shapeCasts_S8192x1_S8192x1) broadcasts_S8192x1_S8192x32 (ix2 p k)
      = et (ix2 p (0 : Fin 1)) := by
    rw [shapeCast_self]
    exact broadcastTo_apply _ _ _ _ (fun a => by
      match a with
      | ⟨0, _⟩ => rfl
      | ⟨1, _⟩ => rfl)
  have hi : iota .tc S8192x32 32 [1] iota_S8192x32_d1_w32 (ix2 p k) = BitVec.ofNat 32 k.val :=
    iota_single_apply _ _ _ _ _ _
  show (((((IntOp.cmpi .eq
      (broadcastTo S8192x32 (shapeCast S8192x1 et shapeCasts_S8192x1_S8192x1) broadcasts_S8192x1_S8192x32 (ix2 p k))
      (iota .tc S8192x32 32 [1] iota_S8192x32_d1_w32 (ix2 p k))).setWidth 32).toInt : ℝ) : EReal)) = _
  rw [hb, hi]
  rfl

/-! ## The stored value at an element -/

/-- Element (p, q) of the body's store: the entity entry times the relation table contracted with the one-hot row. -/
theorem pay_apply (et : Vec Ideal S8192x1 .i32) (ent : Vec Ideal S8192x64 .f32) (w : Vec Ideal S32x64 .f32)
    (p : Fin 8192) (q : Fin 64) :
    k0_pay1 (F := Ideal) et ent w (ix2 p q)
      = ent (ix2 p q) * ∑ k : Fin 32, hot (et (ix2 p (0 : Fin 1))) (BitVec.ofNat 32 k.val) * w (ix2 k q) := by
  unfold k0_pay1
  rw [mulf_apply, shapeCast_self]
  simp only [matmul]
  rw [Ideal.matmul_constant_zero_apply]
  congr 1
  rw [← Equiv.sum_comp (contrEquiv1 dot_S8192x32_S32x64_S8192x64_1_0_0_1_n_n 32 rfl rfl).symm]
  refine Finset.sum_congr rfl fun k _ => ?_
  have hl : dot_S8192x32_S32x64_S8192x64_1_0_0_1_n_n.lhsIdx (ix2 p q)
      ((contrEquiv1 dot_S8192x32_S32x64_S8192x64_1_0_0_1_n_n 32 rfl rfl).symm k) = ix2 p k := by
    funext a; apply Fin.ext
    match a with
    | ⟨0, _⟩ => exact lhs_0 _ _
    | ⟨1, _⟩ => exact (lhs_1 _ _).trans (contrEquiv1_symm_val _ 32 rfl rfl k)
  have hr : dot_S8192x32_S32x64_S8192x64_1_0_0_1_n_n.rhsIdx (ix2 p q)
      ((contrEquiv1 dot_S8192x32_S32x64_S8192x64_1_0_0_1_n_n 32 rfl rfl).symm k) = ix2 k q := by
    funext a; apply Fin.ext
    match a with
    | ⟨0, _⟩ => exact (rhs_0 _ _).trans (contrEquiv1_symm_val _ 32 rfl rfl k)
    | ⟨1, _⟩ => exact rhs_1 _ _
  rw [hl, hr, onehot_entry]
  rfl

end Cert.KernelIdeal.EdgeProduct

end
-- ==== Proof.EdgeBlocks.lean ====
/-
  The first region's output array after the region, as ONE function of the arrays the region finds.

  The grid has 153 points; point t takes rows [8192·t, 8192·t + 8192) of the padded entity rows (64 columns) and of the
  padded relation words (one column), the whole 32 × 64 relation table at every point, and writes the same rows of
  the output. Each block is the body's store and the 153 blocks tile the 1253376 rows: so the whole array ends as
  out[e, d] = ent[e, d] · Σ_k [et[e, 0] = k] · w[k, d].
-/
import proofs.«400545_j38543036514382_2_alg».proof.Proof.Gen.KernelIdeal.Frame
import proofs.«400545_j38543036514382_2_alg».proof.Proof.EdgeProduct
import Idealize.ShloMosaic.Lib.Pipeline.Value
import Idealize.ShloMosaic.Lib.ValueIdx

set_option maxRecDepth 16384

noncomputable section

open scoped BigOperators

namespace Cert.KernelIdeal.EdgeBlocks

open Cert.KernelIdeal Cert.KernelIdeal.Gen Idealize.ShloMosaic Idealize.ShloMosaic.TcCoe Idealize.ShloMosaic.ValueIdx Idealize.SL.Sem
open Idealize.ShloMosaic.Pipeline (Dat Cfg Window)

/- The buffer contents when the region is entered: a parameter, as in the region's generated half. -/
variable (V : (c : Dev nD) → (b : Ref sig .tc) → Buf (Elt Ideal) ((c : Thread nD τ).loc b))

theorem origin : (![0, 0] : Fin 2 → Nat) = fun _ => 0 := funext fun a => by fin_cases a <;> rfl

open Cert.RelationRow

/-- Each entity row times the relation table contracted with the edge's one-hot row. -/
def edgeOf (ent : S1253376x64.Idx → EReal) (et : S1253376x1.Idx → BitVec 32) (w : S32x64.Idx → EReal) :
    S1253376x64.Idx → EReal :=
  fun i => ent i * ∑ k : Fin 32, hot (et (ix2 (i 0) (0 : Fin 1))) (BitVec.ofNat 32 k.val) * w (ix2 k (i 1))

/-- The three arrays the region reads, each at its literal type. -/
abbrev entArr (c : Dev nD) : S1253376x64.Idx → EReal := V c main_v11
abbrev etArr (c : Dev nD) : S1253376x1.Idx → BitVec 32 := V c main_v13
abbrev tblArr (c : Dev nD) : S32x64.Idx → EReal := V c main_arg3

/-- The index maps over the grid: the entity rows and the relation words move with the output along the rows, the
    table stays; no window moves along columns. -/
theorem idx_facts : ∀ t : Fin cfg0.N, win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 152 :=
  (by decide +kernel : ∀ t : Fin grid0.N, _)

/-- Every block of rows is some point's. -/
theorem idx_onto : ∀ q0 : Fin 153, ∃ t : Fin cfg0.N, win0_3.index t = ![q0.val, 0] :=
  (by decide +kernel : ∀ q0 : Fin 153, ∃ t : Fin grid0.N, win0_3.index t = ![q0.val, 0])

/-- What point t writes back is block t of `edgeOf` of the arrays as the region finds them. -/
theorem flushed_eq (c : Dev nD) (t : Fin cfg0.N) :
    (dat0 V c).flushed 3 t
      = ((cfg0.win 3).blk t).view.read (Elt Ideal) (edgeOf (V c main_v11) (V c main_v13) (V c main_arg3)) := by
  show (cfg0.win 3).cut (grid0.coords t) ((dat0 V c).after 3 t) = _
  rw [after0_3]
  unfold out0_3
  rw [View.canon_unit_zero origin]
  simp only [View.ld_unit_zero (S := S8192x64) origin, View.ld_unit_zero (S := S8192x1) origin,
    View.ld_unit_zero (S := S32x64) origin]
  obtain ⟨e0, e1, e2, e3, e4, e5, e6, e7⟩ := idx_facts t
  funext j
  obtain ⟨p, q, rfl⟩ : ∃ (p : Fin 8192) (q : Fin 64), j = ix2 p q := ⟨j 0, j 1, eq_ix2 j⟩
  show k0_pay1 (F := Ideal) (iblk0 V c 1 t) (iblk0 V c 0 t) (iblk0 V c 2 t) (ix2 p q)
    = edgeOf (V c main_v11) (V c main_v13) (V c main_arg3) (((cfg0.win 3).blk t).view.emb (ix2 p q))
  refine (EdgeProduct.pay_apply (iblk0 V c 1 t) (iblk0 V c 0 t) (iblk0 V c 2 t) p q).trans ?_
  have h0 : ((cfg0.win 0).blk t).view.emb (ix2 p q) = ((cfg0.win 3).blk t).view.emb (ix2 p q) := by
    funext a; apply Fin.ext
    match a with
    | ⟨0, _⟩ => show win0_0.index t (0 : Fin 2) * 8192 + 1 * p.val = win0_3.index t (0 : Fin 2) * 8192 + 1 * p.val; omega
    | ⟨1, _⟩ => show win0_0.index t (1 : Fin 2) * 64 + 1 * q.val = win0_3.index t (1 : Fin 2) * 64 + 1 * q.val; omega
  have h1 : ((cfg0.win 1).blk t).view.emb (ix2 p (0 : Fin 1))
      = ix2 ((((cfg0.win 3).blk t).view.emb (ix2 p q)) 0) (0 : Fin 1) := by
    funext a; apply Fin.ext
    match a with
    | ⟨0, _⟩ => show win0_1.index t (0 : Fin 2) * 8192 + 1 * p.val = win0_3.index t (0 : Fin 2) * 8192 + 1 * p.val; omega
    | ⟨1, _⟩ => show win0_1.index t (1 : Fin 2) * 1 + 1 * 0 = 0; omega
  have h2 : ∀ k : Fin 32, ((cfg0.win 2).blk t).view.emb (ix2 k q)
      = ix2 k ((((cfg0.win 3).blk t).view.emb (ix2 p q)) 1) := fun k => by
    funext a; apply Fin.ext
    match a with
    | ⟨0, _⟩ => show win0_2.index t (0 : Fin 2) * 32 + 1 * k.val = k.val; omega
    | ⟨1, _⟩ => show win0_2.index t (1 : Fin 2) * 64 + 1 * q.val = win0_3.index t (1 : Fin 2) * 64 + 1 * q.val; omega
  show entArr V c (((cfg0.win 0).blk t).view.emb (ix2 p q))
      * ∑ k : Fin 32, hot (etArr V c (((cfg0.win 1).blk t).view.emb (ix2 p (0 : Fin 1)))) (BitVec.ofNat 32 k.val)
          * tblArr V c (((cfg0.win 2).blk t).view.emb (ix2 k q))
    = entArr V c (((cfg0.win 3).blk t).view.emb (ix2 p q))
      * ∑ k : Fin 32, hot (etArr V c (ix2 ((((cfg0.win 3).blk t).view.emb (ix2 p q)) 0) (0 : Fin 1))) (BitVec.ofNat 32 k.val)
          * tblArr V c (ix2 k ((((cfg0.win 3).blk t).view.emb (ix2 p q)) 1))
  rw [h0, h1]
  congr 1
  exact Finset.sum_congr rfl fun k _ => by rw [h2 k]; rfl

/-- An index of the array is in point t's block iff each coordinate is in the block's range on its axis. -/
theorem mem_blk (t : Fin cfg0.N) (i : S1253376x64.Idx) :
    i ∈ ((cfg0.win 3).blk t).view.set ↔ ∀ a : Fin 2, win0_3.index t a * S8192x64.size a ≤ (i a).val
      ∧ (i a).val < win0_3.index t a * S8192x64.size a + S8192x64.size a := by
  show i ∈ ((View.whole main_v14).slice (win0_3.rect t)).set ↔ _
  rw [View.set_slice_whole, Rect.mem_set_unit]
  exact Iff.rfl

/-- The blocks tile the array: row r is in the block of the point with row index r / 8192. -/
theorem cover (i : S1253376x64.Idx) :
    ∃ t : Fin cfg0.N, (cfg0.win 3).flush t = true ∧ i ∈ ((cfg0.win 3).blk t).view.set := by
  have hi0 : (i 0).val < 1253376 := (i 0).isLt
  have hi1 : (i 1).val < 64 := (i 1).isLt
  obtain ⟨t, ht⟩ := idx_onto ⟨(i 0).val / 8192, by omega⟩
  have q0 : win0_3.index t (0 : Fin 2) = (i 0).val / 8192 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 8192 ≤ (i 0).val ∧ (i 0).val < win0_3.index t (0 : Fin 2) * 8192 + 8192; omega
  | ⟨1, _⟩ => show win0_3.index t (1 : Fin 2) * 64 ≤ (i 1).val ∧ (i 1).val < win0_3.index t (1 : Fin 2) * 64 + 64; omega

/-- The output array after the region. -/
theorem array_eq (c : Dev nD) :
    (dat0 V c).arrAt 3 cfg0.N = edgeOf (V c main_v11) (V c main_v13) (V c main_arg3) :=
  (dat0 V c).arrAt_eq_of_cover 3 _ (fun t _ => flushed_eq V c t) cover

end Cert.KernelIdeal.EdgeBlocks

end
-- ==== Proof.MeanDivide.lean ====
/-
  What the second kernel's body stores, read at one element of its block.

  The body holds a block of 8192 entities: the row of sums `s` (64 columns) and the entity's count `cnt` (one
  column). It raises the count to at least one and divides the row by it, the count repeated along the columns. So
  element (p, q) of the store is  s[p, q] / max(cnt[p], 1).
-/
import proofs.«400545_j38543036514382_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.MeanDivide

open Cert.KernelIdeal Cert.KernelIdeal.Gen Idealize.ShloMosaic Idealize.ShloMosaic.ValueIdx

/-- Element (p, q) of the body's store: the sum divided by the count raised to at least one. -/
theorem pay_apply (cnt : Vec Ideal S8192x1 .f32) (s : Vec Ideal S8192x64 .f32) (p : Fin 8192) (q : Fin 64) :
    k1_pay1 (F := Ideal) cnt s (ix2 p q)
      = Ideal.div (s (ix2 p q)) (max (cnt (ix2 p (0 : Fin 1))) (Ideal.ofBits .f32 0x3F800000#32)) := by
  unfold k1_pay1
  rw [divf_apply, shapeCast_self, broadcastTo_apply _ _ _ (ix2 p (0 : Fin 1)) (fun a => by
    match a with
    | ⟨0, _⟩ => rfl
    | ⟨1, _⟩ => rfl), maximumf_apply, shapeCast_self]
  rfl

end Cert.KernelIdeal.MeanDivide

end
-- ==== Proof.MeanBlocks.lean ====
/-
  The second region's output array after the region, as ONE function of the arrays the region finds.

  The grid has 13 points; point t takes rows [8192·t, 8192·t + 8192) of the padded sums (all 64 columns) and the same
  rows of the padded counts (one column), and writes the same rows of the output. Each block is the body's store,
  sum / max(count, 1) element by element, and the 13 blocks tile the 106496 rows: so the whole array ends as
  out[n, d] = sums[n, d] / max(counts[n, 0], 1).
-/
import proofs.«400545_j38543036514382_2_alg».proof.Proof.Gen.KernelIdeal.Frame
import proofs.«400545_j38543036514382_2_alg».proof.Proof.MeanDivide
import Idealize.ShloMosaic.Lib.Pipeline.Value
import Idealize.ShloMosaic.Lib.ValueIdx

set_option maxRecDepth 16384

noncomputable section

open scoped BigOperators

namespace Cert.KernelIdeal.MeanBlocks

open Cert.KernelIdeal Cert.KernelIdeal.Gen Idealize.ShloMosaic Idealize.ShloMosaic.TcCoe Idealize.ShloMosaic.ValueIdx Idealize.SL.Sem
open Idealize.ShloMosaic.Pipeline (Dat Cfg Window)

/- The buffer contents when the region is entered: a parameter, as in the region's generated half. -/
variable (V : (c : Dev nD) → (b : Ref sig .tc) → Buf (Elt Ideal) ((c : Thread nD τ).loc b))

theorem origin : (![0, 0] : Fin 2 → Nat) = fun _ => 0 := funext fun a => by fin_cases a <;> rfl

/-- Each row of sums divided by its count raised to at least one. -/
def meanOf (s : S106496x64.Idx → EReal) (cnt : S106496x1.Idx → EReal) : S106496x64.Idx → EReal :=
  fun i => Ideal.div (s i) (max (cnt (ix2 (i 0) (0 : Fin 1))) (Ideal.ofBits .f32 0x3F800000#32))

/-- The index maps over the grid: the two inputs move with the output along the rows; no window moves along columns. -/
theorem idx_facts : ∀ t : Fin cfg1.N, win1_0.index t (0 : Fin 2) = win1_2.index t (0 : Fin 2) ∧ win1_0.index t (1 : Fin 2) = 0
    ∧ win1_1.index t (0 : Fin 2) = win1_2.index t (0 : Fin 2) ∧ win1_1.index t (1 : Fin 2) = 0
    ∧ win1_2.index t (1 : Fin 2) = 0 ∧ win1_2.index t (0 : Fin 2) ≤ 12 :=
  (by decide +kernel : ∀ t : Fin grid1.N, _)

/-- Every block of rows is some point's. -/
theorem idx_onto : ∀ q0 : Fin 13, ∃ t : Fin cfg1.N, win1_2.index t = ![q0.val, 0] :=
  (by decide +kernel : ∀ q0 : Fin 13, ∃ t : Fin grid1.N, win1_2.index t = ![q0.val, 0])

/-- What point t writes back is block t of `meanOf` of the arrays as the region finds them. -/
theorem flushed_eq (c : Dev nD) (t : Fin cfg1.N) :
    (dat1 V c).flushed 2 t = ((cfg1.win 2).blk t).view.read (Elt Ideal) (meanOf (V c main_v23) (V c main_v25)) := by
  show (cfg1.win 2).cut (grid1.coords t) ((dat1 V c).after 2 t) = _
  rw [after1_2]
  unfold out1_2
  rw [View.canon_unit_zero origin]
  simp only [View.ld_unit_zero (S := S8192x64) origin, View.ld_unit_zero (S := S8192x1) origin]
  obtain ⟨e0, e1, e2, e3, e4, e5⟩ := idx_facts t
  funext j
  obtain ⟨p, q, rfl⟩ : ∃ (p : Fin 8192) (q : Fin 64), j = ix2 p q := ⟨j 0, j 1, eq_ix2 j⟩
  show k1_pay1 (F := Ideal) (iblk1 V c 1 t) (iblk1 V c 0 t) (ix2 p q)
    = meanOf (V c main_v23) (V c main_v25) (((cfg1.win 2).blk t).view.emb (ix2 p q))
  refine (MeanDivide.pay_apply (iblk1 V c 1 t) (iblk1 V c 0 t) p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 8192 + 1 * p.val = win1_2.index t (0 : Fin 2) * 8192 + 1 * p.val; omega
    | ⟨1, _⟩ => show win1_0.index t (1 : Fin 2) * 64 + 1 * q.val = win1_2.index t (1 : Fin 2) * 64 + 1 * q.val; omega
  have h1 : ((cfg1.win 1).blk t).view.emb (ix2 p (0 : Fin 1))
      = ix2 ((((cfg1.win 2).blk t).view.emb (ix2 p q)) 0) (0 : Fin 1) := by
    funext a; apply Fin.ext
    match a with
    | ⟨0, _⟩ => show win1_1.index t (0 : Fin 2) * 8192 + 1 * p.val = win1_2.index t (0 : Fin 2) * 8192 + 1 * p.val; omega
    | ⟨1, _⟩ => show win1_1.index t (1 : Fin 2) * 1 + 1 * 0 = 0; omega
  show Ideal.div (V c main_v23 (((cfg1.win 0).blk t).view.emb (ix2 p q)))
      (max (V c main_v25 (((cfg1.win 1).blk t).view.emb (ix2 p (0 : Fin 1)))) (Ideal.ofBits .f32 0x3F800000#32))
    = Ideal.div (V c main_v23 (((cfg1.win 2).blk t).view.emb (ix2 p q)))
      (max (V c main_v25 (ix2 ((((cfg1.win 2).blk t).view.emb (ix2 p q)) 0) (0 : Fin 1))) (Ideal.ofBits .f32 0x3F800000#32))
  rw [h0, h1]
  rfl

/-- An index of the array is in point t's block iff each coordinate is in the block's range on its axis. -/
theorem mem_blk (t : Fin cfg1.N) (i : S106496x64.Idx) :
    i ∈ ((cfg1.win 2).blk t).view.set ↔ ∀ a : Fin 2, win1_2.index t a * S8192x64.size a ≤ (i a).val
      ∧ (i a).val < win1_2.index t a * S8192x64.size a + S8192x64.size a := by
  show i ∈ ((View.whole main_v26).slice (win1_2.rect t)).set ↔ _
  rw [View.set_slice_whole, Rect.mem_set_unit]
  exact Iff.rfl

/-- The blocks tile the array: row r is in the block of the point with row index r / 8192. -/
theorem cover (i : S106496x64.Idx) :
    ∃ t : Fin cfg1.N, (cfg1.win 2).flush t = true ∧ i ∈ ((cfg1.win 2).blk t).view.set := by
  have hi0 : (i 0).val < 106496 := (i 0).isLt
  have hi1 : (i 1).val < 64 := (i 1).isLt
  obtain ⟨t, ht⟩ := idx_onto ⟨(i 0).val / 8192, by omega⟩
  have q0 : win1_2.index t (0 : Fin 2) = (i 0).val / 8192 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 8192 ≤ (i 0).val ∧ (i 0).val < win1_2.index t (0 : Fin 2) * 8192 + 8192; omega
  | ⟨1, _⟩ => show win1_2.index t (1 : Fin 2) * 64 ≤ (i 1).val ∧ (i 1).val < win1_2.index t (1 : Fin 2) * 64 + 64; omega

/-- The output array after the region. -/
theorem array_eq (c : Dev nD) : (dat1 V c).arrAt 2 cfg1.N = meanOf (V c main_v23) (V c main_v25) :=
  (dat1 V c).arrAt_eq_of_cover 2 _ (fun t _ => flushed_eq V c t) cover

end Cert.KernelIdeal.MeanBlocks

end
-- ==== Proof.KernelStages.lean ====
/-
  The kernel program's result as ONE function of its four argument arrays: the stages, as definitions.

  @main is: host operations that gather each edge's tail entity row and pad the rows and the relation words to a
  whole number of blocks; the first region (each padded row times the relation table contracted with the edge's
  one-hot row); host operations that cut the padding off again, add the products and a column of ones into their head
  entity's row (sums, counts), and pad both; the second region (each sum over its count raised to at least one); a
  last cut. Each stage is named here as a function of plain arrays; that the program's buffers hold them is read off
  the run in the next module.
-/
import proofs.«400545_j38543036514382_2_alg».proof.Proof.EdgeBlocks
import proofs.«400545_j38543036514382_2_alg».proof.Proof.MeanBlocks

set_option maxRecDepth 16384

noncomputable section

namespace Cert.KernelIdeal.KernelValue

open Cert.KernelIdeal Cert.KernelIdeal.Gen Idealize.ShloMosaic Idealize.ShloMosaic.TcCoe Idealize.SL.Sem

/-! ## The value, stage by stage, over plain arrays -/

/-- Row 0 of the edge array: each edge's head entity. -/
def headWords (a1 : IVec S2x1250000 32) : IVec S1250000 32 :=
  shapeCast S1250000 (extractStridedSlice S1x1250000 ![0, 0] a1 slices_S2x1250000_S1x1250000_0_0) shapeCasts_S1x1250000_S1250000

/-- Row 1 of the edge array: each edge's tail entity. -/
def tailWords (a1 : IVec S2x1250000 32) : IVec S1250000 32 :=
  shapeCast S1250000 (extractStridedSlice S1x1250000 ![1, 0] a1 slices_S2x1250000_S1x1250000_1_0) shapeCasts_S1x1250000_S1250000

/-- Each edge's tail entity row: negative words wrapped by the table's height, then the gather. -/
def tailRows (a0 : FVec Ideal S100000x64 .f32) (a1 : IVec S2x1250000 32) : FVec Ideal S1250000x64 .f32 :=
  Host.gather gather_S100000x64_S1250000x1_S1250000x64_1_0_n_n_0_1_164 a0
    (broadcastInDim S1250000x1 ![0] bcast_S1250000_S1250000x1_0
      (select (cmpi .slt (tailWords a1) (broadcastInDim S1250000 ![] bcast_S_S1250000 (constantI S_ 32 0#32)))
        (addi (tailWords a1) (broadcastInDim S1250000 ![] bcast_S_S1250000 (constantI S_ 32 100000#32)))
        (tailWords a1)))

/-- The tail rows padded with zero rows to 153 blocks. -/
def paddedRows (a0 : FVec Ideal S100000x64 .f32) (a1 : IVec S2x1250000 32) : FVec Ideal S1253376x64 .f32 :=
  pad S1253376x64 ![0, 0] ![3376, 0] ![0, 0] (tailRows a0 a1) (sitofp (F := Ideal) .f32 (constantI S_ 32 0#32))
    pads_S1250000x64_S1253376x64_033760_000 h_S_

/-- The relation words padded with zeros to 153 blocks, as a column. -/
def paddedRelations (a2 : IVec S1250000 32) : IVec S1253376x1 32 :=
  broadcastInDim S1253376x1 ![0] bcast_S1253376_S1253376x1_0
    (pad S1253376 ![0] ![3376] ![0] a2 (id (constantI S_ 32 0#32)) pads_S1250000_S1253376_033760 h_S_)

/-- The first region's output with the padding rows cut off: one product row per edge. -/
def edgeProducts (a0 : FVec Ideal S100000x64 .f32) (a1 : IVec S2x1250000 32) (a2 : IVec S1250000 32)
    (a3 : FVec Ideal S32x64 .f32) : FVec Ideal S1250000x64 .f32 :=
  extractStridedSlice S1250000x64 ![0, 0] (EdgeBlocks.edgeOf (paddedRows a0 a1) (paddedRelations a2) a3)
    slices_S1253376x64_S1250000x64_0_0

/-- The product rows added into their head entity's row. -/
def sums (a0 : FVec Ideal S100000x64 .f32) (a1 : IVec S2x1250000 32) (a2 : IVec S1250000 32)
    (a3 : FVec Ideal S32x64 .f32) : FVec Ideal S100000x64 .f32 :=
  Host.scatterAdd scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0 (headWords a1))
    (edgeProducts a0 a1 a2 a3)

/-- A one per edge added into its head entity's count. -/
def counts (a1 : IVec S2x1250000 32) : FVec Ideal S100000 .f32 :=
  Host.scatterAdd scatter_S100000_S1250000x1_S1250000_n_0_0_1
    (broadcastInDim S100000 ![] bcast_S_S100000 (constant (F := Ideal) S_ .f32 0x00000000#32))
    (broadcastInDim S1250000x1 ![0] bcast_S1250000_S1250000x1_0 (headWords a1))
    (broadcastInDim S1250000 ![] bcast_S_S1250000 (constant (F := Ideal) S_ .f32 0x3F800000#32))

/-- The sums padded with zero rows to 13 blocks. -/
def paddedSums (a0 : FVec Ideal S100000x64 .f32) (a1 : IVec S2x1250000 32) (a2 : IVec S1250000 32)
    (a3 : FVec Ideal S32x64 .f32) : FVec Ideal S106496x64 .f32 :=
  pad S106496x64 ![0, 0] ![6496, 0] ![0, 0] (sums a0 a1 a2 a3) (sitofp (F := Ideal) .f32 (constantI S_ 32 0#32))
    pads_S100000x64_S106496x64_064960_000 h_S_

/-- The counts padded with zeros to 13 blocks, as a column. -/
def paddedCounts (a1 : IVec S2x1250000 32) : FVec Ideal S106496x1 .f32 :=
  broadcastInDim S106496x1 ![0] bcast_S106496_S106496x1_0
    (pad S106496 ![0] ![6496] ![0] (counts a1) (sitofp (F := Ideal) .f32 (constantI S_ 32 0#32))
      pads_S100000_S106496_064960 h_S_)

/-- The second region's output with the padding rows cut off: the program's result. -/
def result (a0 : FVec Ideal S100000x64 .f32) (a1 : IVec S2x1250000 32) (a2 : IVec S1250000 32)
    (a3 : FVec Ideal S32x64 .f32) : FVec Ideal S100000x64 .f32 :=
  extractStridedSlice S100000x64 ![0, 0] (MeanBlocks.meanOf (paddedSums a0 a1 a2 a3) (paddedCounts a1))
    slices_S106496x64_S100000x64_0_0

end Cert.KernelIdeal.KernelValue

end
-- ==== Proof.KernelValue.lean ====
/-
  The kernel program's result buffer holds `KernelValue.result` of the four argument arrays.

  The generated frame names the buffers' contents at each boundary of @main as a fold from the launch memory. Here the
  fold is read back at the buffers the value passes through, boundary by boundary: the padded tail rows, relation
  words and table at the first region's entry; that region's output array (its blocks tile it); the padded sums and
  counts at the second region's entry; that region's output array; the cut at the return.
-/
import proofs.«400545_j38543036514382_2_alg».proof.Proof.Gen.KernelIdeal.Frame
import proofs.«400545_j38543036514382_2_alg».proof.Proof.KernelStages
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.StableHlo

/-! ## Contents carried to a buffer's own type and back are the contents

One equation per pad between the regions, over variables (the facts about the references are arguments, so that any
proof of them matches). -/

theorem padded_sums_cast (p1 : main_v23.ty = ⟨S106496x64, .f32⟩) (p2 : main_v23.space ≠ .host) (p3 : main_v23.isScoped = false)
    (q1 : main_v18.ty = ⟨S100000x64, .f32⟩) (q2 : main_v18.space ≠ .host) (q3 : main_v18.isScoped = false)
    (r1 : main_call2_v0.ty = ⟨S_, .f32⟩) (r2 : main_call2_v0.space ≠ .host) (r3 : main_call2_v0.isScoped = false)
    (s1 : main_c_5.ty = ⟨S_, .i32⟩) (s2 : main_c_5.space ≠ .host) (s3 : main_c_5.isScoped = false)
    (S : FVec Ideal S100000x64 .f32) (z : IVec S_ 32) :
    (TRef.of main_v23 p1 p2 p3 : TRef sig ⟨S106496x64, .f32⟩).toBuf (Val := Elt Ideal)
      ((fun x v => pad S106496x64 ![0, 0] ![6496, 0] ![0, 0] x v pads_S100000x64_S106496x64_064960_000 h_S_)
        ((TRef.of main_v18 q1 q2 q3 : TRef sig ⟨S100000x64, .f32⟩).ofBuf (Val := Elt Ideal) S)
        ((TRef.of main_call2_v0 r1 r2 r3 : TRef sig ⟨S_, .f32⟩).ofBuf (Val := Elt Ideal)
          ((TRef.of main_call2_v0 r1 r2 r3 : TRef sig ⟨S_, .f32⟩).toBuf
            (sitofp (F := Ideal) .f32 ((TRef.of main_c_5 s1 s2 s3 : TRef sig ⟨S_, .i32⟩).ofBuf (Val := Elt Ideal) z)))))
      = pad S106496x64 ![0, 0] ![6496, 0] ![0, 0] S (sitofp (F := Ideal) .f32 z) pads_S100000x64_S106496x64_064960_000 h_S_ :=
  rfl

theorem padded_counts_cast (p1 : main_v24.ty = ⟨S106496, .f32⟩) (p2 : main_v24.space ≠ .host) (p3 : main_v24.isScoped = false)
    (q1 : main_v22.ty = ⟨S100000, .f32⟩) (q2 : main_v22.space ≠ .host) (q3 : main_v22.isScoped = false)
    (r1 : main_call3_v0.ty = ⟨S_, .f32⟩) (r2 : main_call3_v0.space ≠ .host) (r3 : main_call3_v0.isScoped = false)
    (s1 : main_c_6.ty = ⟨S_, .i32⟩) (s2 : main_c_6.space ≠ .host) (s3 : main_c_6.isScoped = false)
    (C : FVec Ideal S100000 .f32) (z : IVec S_ 32) :
    (TRef.of main_v24 p1 p2 p3 : TRef sig ⟨S106496, .f32⟩).toBuf (Val := Elt Ideal)
      ((fun x v => pad S106496 ![0] ![6496] ![0] x v pads_S100000_S106496_064960 h_S_)
        ((TRef.of main_v22 q1 q2 q3 : TRef sig ⟨S100000, .f32⟩).ofBuf (Val := Elt Ideal) C)
        ((TRef.of main_call3_v0 r1 r2 r3 : TRef sig ⟨S_, .f32⟩).ofBuf (Val := Elt Ideal)
          ((TRef.of main_call3_v0 r1 r2 r3 : TRef sig ⟨S_, .f32⟩).toBuf
            (sitofp (F := Ideal) .f32 ((TRef.of main_c_6 s1 s2 s3 : TRef sig ⟨S_, .i32⟩).ofBuf (Val := Elt Ideal) z)))))
      = pad S106496 ![0] ![6496] ![0] C (sitofp (F := Ideal) .f32 z) pads_S100000_S106496_064960 h_S_ :=
  rfl

/-! ## The fold read back -/

variable (m : (ℓ : Loc nD τ sig) → Buf (Elt Ideal) ℓ) (ρ : Dev nD → PrngReg)

/-- The four argument arrays as launched, at their literal types. -/
abbrev entities (c : Dev nD) : FVec Ideal S100000x64 .f32 := m ((c : Thread nD τ).loc main_arg0)
abbrev edges (c : Dev nD) : IVec S2x1250000 32 := m ((c : Thread nD τ).loc main_arg1)
abbrev relations (c : Dev nD) : IVec S1250000 32 := m ((c : Thread nD τ).loc main_arg2)
abbrev table (c : Dev nD) : FVec Ideal S32x64 .f32 := m ((c : Thread nD τ).loc main_arg3)

/-- At the first region's entry: the padded tail rows. -/
theorem entry0_rows (c : Dev nD) :
    W5 m ρ c (Proc.devRef .tc main_v11) = paddedRows (entities m c) (edges m c) := by
  dsimp only [W5, W4, W3, W2, W1, hostOps0, hostOps0_1, hostOps0_2, hostOps0_3, hostOps0_4]
  after_results
  rfl

/-- At the first region's entry: the padded relation column. -/
theorem entry0_relations (c : Dev nD) :
    W5 m ρ c (Proc.devRef .tc main_v13) = paddedRelations (relations m c) := by
  dsimp only [W5, W4, W3, W2, W1, hostOps0, hostOps0_1, hostOps0_2, hostOps0_3, hostOps0_4]
  after_results
  rfl

/-- At the first region's entry: the relation table as launched. -/
theorem entry0_table (c : Dev nD) : W5 m ρ c (Proc.devRef .tc main_arg3) = table m c := by
  dsimp only [W5, W4, W3, W2, W1, hostOps0, hostOps0_1, hostOps0_2, hostOps0_3, hostOps0_4]
  after_results

/-- At the first region's entry: the head words. -/
theorem entry0_head (c : Dev nD) : W5 m ρ c (Proc.devRef .tc main_v1) = headWords (edges m c) := by
  dsimp only [W5, W4, W3, W2, W1, hostOps0, hostOps0_1, hostOps0_2, hostOps0_3, hostOps0_4]
  after_results
  rfl

/-- At the first region's exit: its output array. -/
theorem exit0_products (c : Dev nD) :
    W6 m ρ c (Proc.devRef .tc main_v14)
      = EdgeBlocks.edgeOf (paddedRows (entities m c) (edges m c)) (paddedRelations (relations m c)) (table m c) :=
  (W6_arr m ρ c 3).trans ((EdgeBlocks.array_eq (V5 m ρ) c).trans (by
    show EdgeBlocks.edgeOf (W5 m ρ c (Proc.devRef .tc main_v11)) (W5 m ρ c (Proc.devRef .tc main_v13))
      (W5 m ρ c (Proc.devRef .tc main_arg3)) = _
    rw [entry0_rows, entry0_relations, entry0_table]))

/-- The region leaves the head words alone. -/
theorem exit0_head (c : Dev nD) : W6 m ρ c (Proc.devRef .tc main_v1) = headWords (edges m c) :=
  (W6_of_ne m ρ c main_v1 (by decide)).trans (entry0_head m ρ c)

/-- At the second region's entry: the padded sums. -/
theorem entry1_sums (c : Dev nD) :
    W11 m ρ c (Proc.devRef .tc main_v23) = paddedSums (entities m c) (edges m c) (relations m c) (table m c) := by
  dsimp only [W11, W10, W9, W8, W7, hostOps1, hostOps1_1, hostOps1_2, hostOps1_3, hostOps1_4]
  after_results
  rw [exit0_products, exit0_head, padded_sums_cast]
  rfl

/-- At the second region's entry: the padded count column. -/
theorem entry1_counts (c : Dev nD) : W11 m ρ c (Proc.devRef .tc main_v25) = paddedCounts (edges m c) := by
  dsimp only [W11, W10, W9, W8, W7, hostOps1, hostOps1_1, hostOps1_2, hostOps1_3, hostOps1_4]
  after_results
  rw [exit0_head, padded_counts_cast]
  rfl

/-- At the second region's exit: its output array. -/
theorem exit1_means (c : Dev nD) :
    W12 m ρ c (Proc.devRef .tc main_v26)
      = MeanBlocks.meanOf (paddedSums (entities m c) (edges m c) (relations m c) (table m c)) (paddedCounts (edges m c)) :=
  (W12_arr m ρ c 2).trans ((MeanBlocks.array_eq (V11 m ρ) c).trans (by
    show MeanBlocks.meanOf (W11 m ρ c (Proc.devRef .tc main_v23)) (W11 m ρ c (Proc.devRef .tc main_v25)) = _
    rw [entry1_sums, entry1_counts]))

/-- At the return: the result buffer holds `result` of the argument arrays. -/
theorem returned (c : Dev nD) :
    W13 m ρ c (Proc.devRef .tc main_v27) = result (entities m c) (edges m c) (relations m c) (table m c) := by
  dsimp only [W13, hostOps2]
  after_results
  rw [exit1_means]
  rfl

end Cert.KernelIdeal.KernelValue

end
-- ==== Proof.KernelAtIndex.lean ====
/-
  The kernel program's value read at one element.

  The padding and the cuts cancel: edge e of the unpadded arrays sits at row e of the padded ones, a pad read inside
  the operand is the operand, and a cut starting at row 0 reads the same row. So the product row of edge e is the
  tail entity row times the relation table contracted with the edge's one-hot row, and element (n, d) of the result is
  sums[n, d] / max(counts[n], 1).
-/
import proofs.«400545_j38543036514382_2_alg».proof.Proof.KernelStages
import Idealize.ShloMosaic.Lib.KernelVsHost
import Idealize.ShloMosaic.Lib.Pipeline.Value
import Idealize.ShloMosaic.Lib.ValueIdx

noncomputable section

open scoped BigOperators

namespace Cert.KernelIdeal.KernelAtIndex

open Cert.KernelIdeal Cert.KernelIdeal.Gen Cert.KernelIdeal.KernelValue
open Idealize.ShloMosaic Idealize.ShloMosaic.ValueIdx Cert.RelationRow

/-- Edge e as a row of the arrays padded to 153 blocks. -/
abbrev padRow (e : Fin 1250000) : Fin 1253376 := ⟨e.val, by have := e.isLt; omega⟩
/-- Entity n as a row of the arrays padded to 13 blocks. -/
abbrev padEntity (n : Fin 100000) : Fin 106496 := ⟨n.val, by have := n.isLt; omega⟩

theorem paddedRows_apply (a0 : FVec Ideal S100000x64 .f32) (a1 : IVec S2x1250000 32) (e : Fin 1250000) (d : Fin 64) :
    paddedRows a0 a1 (ix2 (padRow e) d) = tailRows a0 a1 (ix2 e d) := by
  unfold paddedRows
  exact pad_apply_of_inside _ _ _ _ _ _ _ (ix2 (padRow e) d) (ix2 e d) (fun a => by
    match a with
    | ⟨0, _⟩ => show e.val = 0 + e.val * (0 + 1); omega
    | ⟨1, _⟩ => show d.val = 0 + d.val * (0 + 1); omega)

theorem paddedRelations_apply (a2 : IVec S1250000 32) (e : Fin 1250000) :
    paddedRelations a2 (ix2 (padRow e) (0 : Fin 1)) = a2 (ix1 e) := by
  unfold paddedRelations
  rw [broadcastInDim_apply _ _ _ _ (ix1 (padRow e)) (fun a => by
    match a with
    | ⟨0, _⟩ => show e.val = if (1253376 : Nat) = 1 then 0 else e.val; rw [if_neg (by decide)])]
  exact pad_apply_of_inside _ _ _ _ _ _ _ (ix1 (padRow e)) (ix1 e) (fun a => by
    match a with
    | ⟨0, _⟩ => show e.val = 0 + e.val * (0 + 1); omega)

/-- The product row of edge e. -/
theorem edgeProducts_apply (a0 : FVec Ideal S100000x64 .f32) (a1 : IVec S2x1250000 32) (a2 : IVec S1250000 32)
    (a3 : FVec Ideal S32x64 .f32) (e : Fin 1250000) (d : Fin 64) :
    edgeProducts a0 a1 a2 a3 (ix2 e d)
      = tailRows a0 a1 (ix2 e d) * ∑ k : Fin 32, hot (a2 (ix1 e)) (BitVec.ofNat 32 k.val) * a3 (ix2 k d) := by
  unfold edgeProducts
  rw [extractStridedSlice_apply _ _ _ _ (ix2 (padRow e) d) (fun a => by
    match a with
    | ⟨0, _⟩ => show e.val = 0 + e.val; omega
    | ⟨1, _⟩ => show d.val = 0 + d.val; omega)]
  show paddedRows a0 a1 (ix2 (padRow e) d)
      * ∑ k : Fin 32, hot (paddedRelations a2 (ix2 (padRow e) (0 : Fin 1))) (BitVec.ofNat 32 k.val) * a3 (ix2 k d) = _
  rw [paddedRows_apply, paddedRelations_apply]

theorem paddedSums_apply (a0 : FVec Ideal S100000x64 .f32) (a1 : IVec S2x1250000 32) (a2 : IVec S1250000 32)
    (a3 : FVec Ideal S32x64 .f32) (n : Fin 100000) (d : Fin 64) :
    paddedSums a0 a1 a2 a3 (ix2 (padEntity n) d) = sums a0 a1 a2 a3 (ix2 n d) := by
  unfold paddedSums
  exact pad_apply_of_inside _ _ _ _ _ _ _ (ix2 (padEntity n) d) (ix2 n d) (fun a => by
    match a with
    | ⟨0, _⟩ => show n.val = 0 + n.val * (0 + 1); omega
    | ⟨1, _⟩ => show d.val = 0 + d.val * (0 + 1); omega)

theorem paddedCounts_apply (a1 : IVec S2x1250000 32) (n : Fin 100000) :
    paddedCounts a1 (ix2 (padEntity n) (0 : Fin 1)) = counts a1 (ix1 n) := by
  unfold paddedCounts
  rw [broadcastInDim_apply _ _ _ _ (ix1 (padEntity n)) (fun a => by
    match a with
    | ⟨0, _⟩ => show n.val = if (106496 : Nat) = 1 then 0 else n.val; rw [if_neg (by decide)])]
  exact pad_apply_of_inside _ _ _ _ _ _ _ (ix1 (padEntity n)) (ix1 n) (fun a => by
    match a with
    | ⟨0, _⟩ => show n.val = 0 + n.val * (0 + 1); omega)

/-- Element (n, d) of the result. -/
theorem result_apply (a0 : FVec Ideal S100000x64 .f32) (a1 : IVec S2x1250000 32) (a2 : IVec S1250000 32)
    (a3 : FVec Ideal S32x64 .f32) (n : Fin 100000) (d : Fin 64) :
    result a0 a1 a2 a3 (ix2 n d)
      = Ideal.div (sums a0 a1 a2 a3 (ix2 n d)) (max (counts a1 (ix1 n)) (Ideal.ofBits .f32 0x3F800000#32)) := by
  unfold result
  rw [extractStridedSlice_apply _ _ _ _ (ix2 (padEntity n) d) (fun a => by
    match a with
    | ⟨0, _⟩ => show n.val = 0 + n.val; omega
    | ⟨1, _⟩ => show d.val = 0 + d.val; omega)]
  show Ideal.div (paddedSums a0 a1 a2 a3 (ix2 (padEntity n) d))
      (max (paddedCounts a1 (ix2 (padEntity n) (0 : Fin 1))) (Ideal.ofBits .f32 0x3F800000#32)) = _
  rw [paddedSums_apply, paddedCounts_apply]

end Cert.KernelIdeal.KernelAtIndex

end
-- ==== Proof.ReferenceAtIndex.lean ====
/-
  The reference program's value read at one element, at the two places the generated reading stops.

  The reference looks the relation row up by a gather: it adds 32 to a negative word, then the gather clamps the word
  into the table's 32 rows. For a word already in [0, 32) neither step changes it, so the gathered row is the table's
  row at that word. And element (n, d) of the result is sums[n, d] / max(counts[n], 1), the count repeated along the
  columns by two broadcasts.
-/
import proofs.«400545_j38543036514382_2_alg».proof.Proof.Gen.ReferenceIdeal.Read
import proofs.«400545_j38543036514382_2_alg».proof.Proof.RelationRow
import Idealize.ShloMosaic.PureOps.Ideal.Laws
import Idealize.ShloMosaic.Lib.ValueIdx

noncomputable section

namespace Cert.ReferenceIdeal.AtIndex

open Cert.ReferenceIdeal Cert.ReferenceIdeal.Gen Cert.ReferenceIdeal.Read
open Idealize.ShloMosaic Idealize.ShloMosaic.ValueIdx Cert.RelationRow

/-- A relation word that is not negative passes the wrap-around unchanged. -/
theorem wrapped_relation (a2 : IVec S1250000 32) (e : Fin 1250000) (h0 : 0 ≤ (a2 (ix1 e)).toInt) :
    val_main_v16 (F := Ideal) a2 (ix2 e (0 : Fin 1)) = a2 (ix1 e) := by
  have hi : idx_main_v16 (ix2 e (0 : Fin 1)) = ix1 e := funext fun a => by
    match a with
    | ⟨0, _⟩ => rfl
  rw [val_main_v16_apply, hi, val_main_v15_apply]
  have hz : val_main_v12 (F := Ideal) a2 (ix1 e) = 0#1 := by
    apply eq_zero_of_ne_one
    intro h1
    have h2 : IntOp.cmpi .slt (a2 (ix1 e)) 0#32 = 1#1 := h1
    have h3 := IntOp.cmpi_slt.1 h2
    have z0 : (0#32 : BitVec 32).toInt = 0 := by decide
    omega
  rw [hz, select_zero]

/-- The gathered relation row of an edge whose word names a row of the table is that row. -/
theorem relation_gather (a2 : IVec S1250000 32) (a3 : FVec Ideal S32x64 .f32) (e : Fin 1250000) (d : Fin 64)
    (h0 : 0 ≤ (a2 (ix1 e)).toInt) (hrow : (a2 (ix1 e)).toNat < 32)
    (hint : (a2 (ix1 e)).toInt = ((a2 (ix1 e)).toNat : Int)) :
    val_main_v17 (F := Ideal) a2 a3 (ix2 e d) = a3 (ix2 ⟨(a2 (ix1 e)).toNat, hrow⟩ d) := by
  unfold val_main_v17
  refine (rowTake_apply (N := 32) (R := 1250000) (C := 64) (by decide) _ a3 (val_main_v16 (F := Ideal) a2) e d).trans ?_
  refine congrArg (fun r : Fin 32 => a3 (ix2 r d)) (Fin.ext ?_)
  show min (val_main_v16 (F := Ideal) a2 (ix2 e (0 : Fin 1))).toInt.toNat (32 - 1) = (a2 (ix1 e)).toNat
  rw [wrapped_relation a2 e h0, hint, Int.toNat_natCast]
  omega

/-- Element (n, d) of the reference's result. -/
theorem result_apply (a0 : FVec Ideal S100000x64 .f32) (a1 : IVec S2x1250000 32) (a2 : IVec S1250000 32)
    (a3 : FVec Ideal S32x64 .f32) (n : Fin 100000) (d : Fin 64) :
    val_main_v30 (F := Ideal) a0 a1 a2 a3 (ix2 n d)
      = Ideal.div (val_main_v21 (F := Ideal) a0 a1 a2 a3 (ix2 n d))
          (max (val_main_v25 (F := Ideal) a1 (ix1 n)) (Ideal.ofBits .f32 0x3F800000#32)) := by
  have hi : idx_main_v28 (idx_main_v29 (ix2 n d)) = ix1 n := funext fun a => by
    match a with
    | ⟨0, _⟩ => rfl
  rw [val_main_v30_apply, val_main_v29_apply, val_main_v28_apply, val_main_v27_apply, hi]
  rfl

end Cert.ReferenceIdeal.AtIndex

end
-- ==== Proof.RelationInRange.lean ====
/-
  What the precondition says of the relation words.

  The precondition ends in two `all`s over the relation array: every word is at least 0 and every word is below 32,
  compared as signed integers. Read back element by element: each relation word names one of the 32 rows of the
  relation table, its signed and unsigned readings agree, and it is not negative (so an index that wraps negative
  words around leaves it alone).
-/
import proofs.«400545_j38543036514382_2_alg».proof.Pre_finite_inputs
import Idealize.ShloMosaic.Lib.ReduceAll
import Idealize.ShloMosaic.Lib.ValueIdx
import Idealize.ShloMosaic.Lib.StableHlo.Predicate

noncomputable section

namespace Cert.RelationInRange

open Idealize.ShloMosaic Idealize.ShloMosaic.ValueIdx Cert.Pre_finite_inputs

instance : Subsingleton S_.Idx := ⟨fun a b => funext fun d => d.elim0⟩

/-- A word whose signed reading lies in [0, 32) has that reading as its unsigned one. -/
theorem toNat_of_toInt_range {x : BitVec 32} (h0 : 0 ≤ x.toInt) (h1 : x.toInt < 32) :
    x.toNat < 32 ∧ x.toInt = (x.toNat : Int) := by
  rw [BitVec.toInt_eq_toNat_cond] at h0 h1 ⊢
  have := x.isLt
  split at h0 <;> split <;> omega

variable [Facts]

/-- Under the precondition every relation word is in [0, 32) as a signed integer. -/
theorem relation_signed_range {F : FTy → Type} [FloatOps F] (a0 : FVec F S100000x64 .f32) (a1 : IVec S2x1250000 32)
    (a2 : IVec S1250000 32) (a3 : FVec F S32x64 .f32) (h : fn (F := F) a0 a1 a2 a3 = fun _ => 1#1) (e : S1250000.Idx) :
    0 ≤ (a2 e).toInt ∧ (a2 e).toInt < 32 := by
  have h0 := congrFun h ix0
  dsimp only [fn, fn_part1] at h0
  obtain ⟨h12, h15⟩ := IntOp.andi_eq_one.1 h0
  obtain ⟨_, h11⟩ := IntOp.andi_eq_one.1 h12
  have hge := Host.reduce_andi_all _ _ _ _ _ h11 e
  have hlt := Host.reduce_andi_all _ _ _ _ _ h15 e
  have hge' : IntOp.cmpi .sge (a2 e) 0#32 = 1#1 := hge
  have hlt' : IntOp.cmpi .slt (a2 e) 32#32 = 1#1 := hlt
  have g := IntOp.cmpi_sge.1 hge'
  have l := IntOp.cmpi_slt.1 hlt'
  have z0 : (0#32 : BitVec 32).toInt = 0 := by decide
  have z32 : (32#32 : BitVec 32).toInt = 32 := by decide
  rw [z0] at g
  rw [z32] at l
  exact ⟨g, l⟩

/-- Under the precondition every relation word names a row of the table: its unsigned reading is below 32, and is
    its signed reading. -/
theorem relation_row {F : FTy → Type} [FloatOps F] (a0 : FVec F S100000x64 .f32) (a1 : IVec S2x1250000 32)
    (a2 : IVec S1250000 32) (a3 : FVec F S32x64 .f32) (h : fn (F := F) a0 a1 a2 a3 = fun _ => 1#1) (e : S1250000.Idx) :
    (a2 e).toNat < 32 ∧ (a2 e).toInt = ((a2 e).toNat : Int) :=
  toNat_of_toInt_range (relation_signed_range a0 a1 a2 a3 h e).1 (relation_signed_range a0 a1 a2 a3 h e).2

end Cert.RelationInRange

end
-- ==== Proof.Bridge.lean ====
/-
  The two programs compute one function of the argument arrays, under the precondition.

  Both gather each edge's tail entity row in the same way, both add the edges' product rows and a column of ones into
  the head entities' rows in the same way, and both divide each sum by its count raised to at least one. They differ in
  how the relation row of an edge is found: the kernel contracts the relation table with the one-hot row of the
  edge's relation word, the reference gathers the table's row at the word (wrapping a negative word, clamping it into
  the table). For a word in [0, 32), which is what the precondition says of every relation word, both are the table's
  row at that word: the contraction has one non-zero term, and neither the wrap nor the clamp moves the word.
-/
import proofs.«400545_j38543036514382_2_alg».proof.Proof.KernelAtIndex
import proofs.«400545_j38543036514382_2_alg».proof.Proof.ReferenceAtIndex
import proofs.«400545_j38543036514382_2_alg».proof.Proof.RelationInRange

noncomputable section

open scoped BigOperators

namespace Cert.Bridge

open Idealize.ShloMosaic Idealize.ShloMosaic.ValueIdx Cert.RelationRow

variable [Cert.Pre_finite_inputs.Facts]
variable (a0 : FVec Ideal Cert.KernelIdeal.S100000x64 .f32) (a1 : IVec Cert.KernelIdeal.S2x1250000 32)
  (a2 : IVec Cert.KernelIdeal.S1250000 32) (a3 : FVec Ideal Cert.KernelIdeal.S32x64 .f32)

/-- The gathered tail entity rows are one term in both programs. -/
theorem tailRows_eq :
    Cert.ReferenceIdeal.Read.val_main_v10 (F := Ideal) a0 a1 = Cert.KernelIdeal.KernelValue.tailRows a0 a1 := rfl

/-- The counts are one term in both programs. -/
theorem counts_eq :
    Cert.ReferenceIdeal.Read.val_main_v25 (F := Ideal) a1 = Cert.KernelIdeal.KernelValue.counts a1 := rfl

/-- The edges' product rows agree: the gathered relation row is the one-hot contraction. -/
theorem products_eq (h : Cert.Pre_finite_inputs.fn (F := Ideal) a0 a1 a2 a3 = fun _ => 1#1) :
    Cert.ReferenceIdeal.Read.val_main_v18 (F := Ideal) a0 a1 a2 a3
      = Cert.KernelIdeal.KernelValue.edgeProducts a0 a1 a2 a3 := by
  funext j
  obtain ⟨e, d, rfl⟩ : ∃ (e : Fin 1250000) (d : Fin 64), j = ix2 e d := ⟨j 0, j 1, eq_ix2 j⟩
  have hr := Cert.RelationInRange.relation_row a0 a1 a2 a3 h (ix1 e)
  have hs := Cert.RelationInRange.relation_signed_range a0 a1 a2 a3 h (ix1 e)
  have hc : ∑ k : Fin 32, hot (a2 (ix1 e)) (BitVec.ofNat 32 k.val) * a3 (ix2 k d)
      = a3 (ix2 ⟨(a2 (ix1 e)).toNat, hr.1⟩ d) :=
    hot_contract (by norm_num) _ hr.1 (fun k => a3 (ix2 k d))
  rw [Cert.KernelIdeal.KernelAtIndex.edgeProducts_apply, hc, Cert.ReferenceIdeal.Read.val_main_v18_apply,
    Cert.ReferenceIdeal.AtIndex.relation_gather a2 a3 e d hs.1 hr.1 hr.2, tailRows_eq]
  rfl

/-- The sums agree: the same scatter-add of equal product rows. -/
theorem sums_eq (h : Cert.Pre_finite_inputs.fn (F := Ideal) a0 a1 a2 a3 = fun _ => 1#1) :
    Cert.ReferenceIdeal.Read.val_main_v21 (F := Ideal) a0 a1 a2 a3 = Cert.KernelIdeal.KernelValue.sums a0 a1 a2 a3 := by
  unfold Cert.ReferenceIdeal.Read.val_main_v21
  rw [products_eq a0 a1 a2 a3 h]
  rfl

/-- The reference's result is the kernel program's result. -/
theorem result_eq (h : Cert.Pre_finite_inputs.fn (F := Ideal) a0 a1 a2 a3 = fun _ => 1#1) :
    Cert.ReferenceIdeal.Read.val_main_v30 (F := Ideal) a0 a1 a2 a3 = Cert.KernelIdeal.KernelValue.result a0 a1 a2 a3 := by
  funext i
  obtain ⟨n, d, rfl⟩ : ∃ (n : Fin 100000) (d : Fin 64), i = ix2 n d := ⟨i 0, i 1, eq_ix2 i⟩
  rw [Cert.ReferenceIdeal.AtIndex.result_apply, Cert.KernelIdeal.KernelAtIndex.result_apply, sums_eq a0 a1 a2 a3 h,
    counts_eq]

end Cert.Bridge

end
-- ==== Proof.lean ====
/-
  The certificate: a two-kernel scatter-mean of relation-weighted neighbour rows against its jnp reference, equal
  over the extended reals under the precondition (float inputs finite, every relation word in [0, 32)).

  For each edge the program multiplies the tail entity's row by the relation's row, adds the products into the head
  entity's row, counts the edges per head entity, and divides each sum by its count raised to at least one. The kernel
  program finds the relation's row by contracting the 32-row relation table with the one-hot row of the edge's
  relation word on the matrix unit, inside a blocked kernel over the padded edge list, and divides in a second blocked
  kernel over the padded entity list; the reference gathers the row and divides on the host. For a relation word in
  [0, 32) the contraction has a single non-zero term, the table's row at that word, which is also what the gather
  reads; every other operation is the same in both programs, and the padding the kernels add is cut off again. The
  finiteness of the float inputs is not used: 0 · x = 0 and 1 · x = x hold for every extended real.

  The three frames are the generated ones (the reference's is its generated run with the result dropped); the
  idealization rewrote no operation, so `preserves` has nothing to state. For the value, the kernel program's run is
  taken with its result buffer named (Proof/Launched.lean), that buffer's contents are read back through @main's
  segments to one function of the arguments (Proof/KernelValue.lean over the two regions' arrays, Proof/EdgeBlocks.lean
  and Proof/MeanBlocks.lean), and that function is the reference's term (Proof/Bridge.lean).
-/
import proofs.«400545_j38543036514382_2_alg».proof.Defs
import proofs.«400545_j38543036514382_2_alg».proof.Proof.Gen.Kernel
import proofs.«400545_j38543036514382_2_alg».proof.Proof.Gen.Kernel.Skeleton
import proofs.«400545_j38543036514382_2_alg».proof.Proof.Gen.Kernel.Launch
import proofs.«400545_j38543036514382_2_alg».proof.Proof.Gen.Kernel.Points
import proofs.«400545_j38543036514382_2_alg».proof.Proof.Gen.Kernel.Frame
import proofs.«400545_j38543036514382_2_alg».proof.Proof.Gen.KernelIdeal
import proofs.«400545_j38543036514382_2_alg».proof.Proof.Gen.KernelIdeal.Skeleton
import proofs.«400545_j38543036514382_2_alg».proof.Proof.Gen.KernelIdeal.Launch
import proofs.«400545_j38543036514382_2_alg».proof.Proof.Gen.KernelIdeal.Points
import proofs.«400545_j38543036514382_2_alg».proof.Proof.Gen.KernelIdeal.Frame
import proofs.«400545_j38543036514382_2_alg».proof.Proof.Gen.ReferenceIdeal
import proofs.«400545_j38543036514382_2_alg».proof.Proof.Gen.Pre_finite_inputs
import proofs.«400545_j38543036514382_2_alg».proof.Proof.Gen.ReferenceIdeal.Run
import proofs.«400545_j38543036514382_2_alg».proof.Proof.Gen.ReferenceIdeal.Read
import proofs.«400545_j38543036514382_2_alg».proof.Proof.Launched
import proofs.«400545_j38543036514382_2_alg».proof.Proof.KernelValue
import proofs.«400545_j38543036514382_2_alg».proof.Proof.Bridge
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- The idealized kernel program runs and keeps its arguments: the generated frame. -/
theorem frame_ideal : Cert.frame_KernelIdeal := fun m ρ _ => Cert.KernelIdeal.Gen.frame m ρ

/-- The reference runs and keeps its arguments: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the same result: the kernel program's result buffer holds its value function of the
    arguments, the reference's holds its own term of arguments that agree, and under the precondition the two are one
    function. -/
theorem algebraic : Cert.algebraic_KernelIdeal_ReferenceIdeal := by
  intro m ρ m' ρ' hpre hagree
  refine ⟨fun c => Cert.KernelIdeal.KernelValue.result (Cert.KernelIdeal.KernelValue.entities m c)
    (Cert.KernelIdeal.KernelValue.edges m c) (Cert.KernelIdeal.KernelValue.relations m c)
    (Cert.KernelIdeal.KernelValue.table m c), ?_, ?_⟩
  · exact (θ_run Cert.KernelIdeal.defs _ _).mono
      (fun r h c => ⟨(h c).1.trans (Cert.KernelIdeal.KernelValue.returned m ρ c), (h c).2⟩)
      (Cert.KernelIdeal.Launched.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v30_eq, (hagree c).1, (hagree c).2.1, (hagree c).2.2.1, (hagree c).2.2.2]
    exact Cert.Bridge.result_eq _ _ _ _ (hpre c)

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
